-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S2x524288 : Shape := ⟨2, ![2, 524288]⟩
abbrev S64x64 : Shape := ⟨2, ![64, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x64 .f32) (main_arg1 : IVec S2x524288 32) (main_arg2 : FVec F S64x64 .f32) (main_arg3 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x64 : Shape := ⟨2, ![16384, 64]⟩
abbrev S2x524288 : Shape := ⟨2, ![2, 524288]⟩
abbrev S64x64 : Shape := ⟨2, ![64, 64]⟩
abbrev S64 : Shape := ⟨1, ![64]⟩
abbrev S1x524288 : Shape := ⟨2, ![1, 524288]⟩
abbrev S524288 : Shape := ⟨1, ![524288]⟩
abbrev S16384 : Shape := ⟨1, ![16384]⟩
abbrev S540672 : Shape := ⟨1, ![540672]⟩
abbrev S_ : Shape := ⟨0, ![]⟩
abbrev S540672x1 : Shape := ⟨2, ![540672, 1]⟩
abbrev S540672x64 : Shape := ⟨2, ![540672, 64]⟩
abbrev S1x64 : Shape := ⟨2, ![1, 64]⟩
abbrev S16384x16384 : Shape := ⟨2, ![16384, 16384]⟩
abbrev S2048x64 : Shape := ⟨2, ![2048, 64]⟩
abbrev S2048x2048 : Shape := ⟨2, ![2048, 2048]⟩

abbrev nBuf : Space → Nat
  | .hbm => 69
  | .vmem => 6
  | .smem => 0
  | _ => 0

abbrev bufTy : (tb : Table) → Fin (tcTables nBuf tb) → BufTy
  | .hbm, ⟨0, _⟩ => ⟨S16384x64, .f32⟩
  | .hbm, ⟨1, _⟩ => ⟨S2x524288, .i32⟩
  | .hbm, ⟨2, _⟩ => ⟨S64x64, .f32⟩
  | .hbm, ⟨3, _⟩ => ⟨S64, .f32⟩
  | .hbm, ⟨4, _⟩ => ⟨S1x524288, .i32⟩
  | .hbm, ⟨5, _⟩ => ⟨S524288, .i32⟩
  | .hbm, ⟨6, _⟩ => ⟨S1x524288, .i32⟩
  | .hbm, ⟨7, _⟩ => ⟨S524288, .i32⟩
  | .hbm, ⟨8, _⟩ => ⟨S16384, .i32⟩
  | .hbm, ⟨9, _⟩ => ⟨S540672, .i32⟩
  | .hbm, ⟨10, _⟩ => ⟨S540672, .i32⟩
  | .hbm, ⟨11, _⟩ => ⟨S_, .f32⟩
  | .hbm, ⟨12, _⟩ => ⟨S540672, .f32⟩
  | .hbm, ⟨13, _⟩ => ⟨S_, .f32⟩
  | .hbm, ⟨14, _⟩ => ⟨S16384, .f32⟩
  | .hbm, ⟨15, _⟩ => ⟨S540672x1, .i32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .i1⟩
  | .hbm, ⟨20, _⟩ => ⟨S16384, .f32⟩
  | .hbm, ⟨21, _⟩ => ⟨S_, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S_, .i32⟩
  | .hbm, ⟨26, _⟩ => ⟨S540672, .i32⟩
  | .hbm, ⟨27, _⟩ => ⟨S540672, .i1⟩
  | .hbm, ⟨28, _⟩ => ⟨S_, .i32⟩
  | .hbm, ⟨29, _⟩ => ⟨S540672, .i32⟩
  | .hbm, ⟨30, _⟩ => ⟨S540672, .i32⟩
  | .hbm, ⟨31, _⟩ => ⟨S540672, .i32⟩
  | .hbm, ⟨32, _⟩ => ⟨S540672x1, .i32⟩
  | .hbm, ⟨33, _⟩ => ⟨S540672, .f32⟩
  | .hbm, ⟨34, _⟩ => ⟨S_, .i32⟩
  | .hbm, ⟨35, _⟩ => ⟨S540672, .i32⟩
  | .hbm, ⟨36, _⟩ => ⟨S540672, .i1⟩
  | .hbm, ⟨37, _⟩ => ⟨S_, .i32⟩
  | .hbm, ⟨38, _⟩ => ⟨S540672, .i32⟩
  | .hbm, ⟨39, _⟩ => ⟨S540672, .i32⟩
  | .hbm, ⟨40, _⟩ => ⟨S540672, .i32⟩
  | .hbm, ⟨41, _⟩ => ⟨S540672x1, .i32⟩
  | .hbm, ⟨42, _⟩ => ⟨S540672, .f32⟩
  | .hbm, ⟨43, _⟩ => ⟨S540672, .f32⟩
  | .hbm, ⟨44, _⟩ => ⟨S16384x64, .f32⟩
  | .hbm, ⟨45, _⟩ => ⟨S_, .i32⟩
  | .hbm, ⟨46, _⟩ => ⟨S540672, .i32⟩
  | .hbm, ⟨47, _⟩ => ⟨S540672, .i1⟩
  | .hbm, ⟨48, _⟩ => ⟨S_, .i32⟩
  | .hbm, ⟨49, _⟩ => ⟨S540672, .i32⟩
  | .hbm, ⟨50, _⟩ => ⟨S540672, .i32⟩
  | .hbm, ⟨51, _⟩ => ⟨S540672, .i32⟩
  | .hbm, ⟨52, _⟩ => ⟨S540672x1, .i32⟩
  | .hbm, ⟨53, _⟩ => ⟨S540672x64, .f32⟩
  | .hbm, ⟨54, _⟩ => ⟨S540672x1, .f32⟩
  | .hbm, ⟨55, _⟩ => ⟨S540672x64, .f32⟩
  | .hbm, ⟨56, _⟩ => ⟨S540672x64, .f32⟩
  | .hbm, ⟨57, _⟩ => ⟨S_, .f32⟩
  | .hbm, ⟨58, _⟩ => ⟨S16384x64, .f32⟩
  | .hbm, ⟨59, _⟩ => ⟨S540672x1, .i32⟩
  | .hbm, ⟨60, _⟩ => ⟨S16384x64, .f32⟩
  | .hbm, ⟨61, _⟩ => ⟨S1x64, .f32⟩
  | .hbm, ⟨62, _⟩ => ⟨S16384x64, .f32⟩
  | .hbm, ⟨63, _⟩ => ⟨S16384x64, .f32⟩
  | .hbm, ⟨64, _⟩ => ⟨S_, .f32⟩
  | .hbm, ⟨65, _⟩ => ⟨S16384x64, .f32⟩
  | .hbm, ⟨66, _⟩ => ⟨S16384x64, .f32⟩
  | .hbm, ⟨67, _⟩ => ⟨S16384x64, .bf16⟩
  | .hbm, ⟨68, _⟩ => ⟨S16384x16384, .f32⟩
  | .local _ .vmem, ⟨0, _⟩ => ⟨S2048x64, .bf16⟩
  | .local _ .vmem, ⟨1, _⟩ => ⟨S2048x64, .bf16⟩
  | .local _ .vmem, ⟨2, _⟩ => ⟨S2048x64, .bf16⟩
  | .local _ .vmem, ⟨3, _⟩ => ⟨S2048x64, .bf16⟩
  | .local _ .vmem, ⟨4, _⟩ => ⟨S2048x2048, .f32⟩
  | .local _ .vmem, ⟨5, _⟩ => ⟨S2048x2048, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  concatenates_S524288_S16384_S540672_d0 : Shape.Concatenates [S524288, S16384] S540672 0
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x64_0_1 : S540672x1.BroadcastsInDim S540672x64 (![0, 1] : Fin 2 → Fin S540672x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x2048_S2048x2048_0_0 : ∀ a, (![0, 0] : Fin 2 → Nat) a + S2048x2048.size a ≤ S2048x2048.size a
  h_S2048x2048 : 0 < S2048x2048.numel
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S16384x64_S64x64_S16384x64_1_0_0_1_n_n_wf : DotDims.WF S16384x64 S64x64 S16384x64 [1] [0] [0] [1] [] []
  gather_S16384x64_S540672x1_S540672x64_1_0_n_n_0_1_164_wf : GatherDims.WF S16384x64 S540672x1 S540672x64 [1] [0] [] [0] [] 1 ![1, 64]
  scatter_S16384x64_S540672x1_S540672x64_1_0_0_1_wf : ScatterDims.WF S16384x64 S540672x1 S540672x64 [1] [0] [0] 1
  dot_S2048x64_S2048x64_S2048x2048_1_1_0_0_n_n_wf : DotDims.WF S2048x64 S2048x64 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .bf16 = 32 ∨ (Rect.block (s := S16384x64) S2048x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .bf16 = 32 ∨ (Rect.block (s := S16384x64) S2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S16384x16384.size a
  hwx0_2 : ∀ i : grid0.Coords, EltTy.bits .f32 = 32 ∨ (Rect.block (s := S16384x16384) S2048x2048.size (cc0_transform_2 i) (hinb0_2 i)).WholeWords (EltTy.packing .f32)

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def gather_S16384x64_S540672x1_S540672x64_1_0_n_n_0_1_164 : GatherDims S16384x64 S540672x1 S540672x64 where
  offsetDims := [1]
  collapsedSliceDims := [0]
  operandBatchingDims := []
  startIndicesBatchingDims := []
  startIndexMap := [0]
  indexVectorDim := 1
  sliceSizes := ![1, 64]
  wf := gather_S16384x64_S540672x1_S540672x64_1_0_n_n_0_1_164_wf
def scatter_S16384x64_S540672x1_S540672x64_1_0_0_1 : ScatterDims S16384x64 S540672x1 S540672x64 where
  updateWindowDims := [1]
  insertedWindowDims := [0]
  scatterDimsToOperandDims := [0]
  indexVectorDim := 1
  wf := scatter_S16384x64_S540672x1_S540672x64_1_0_0_1_wf
def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf

abbrev win0_0 : Pipeline.Window sig grid0 :=
  Pipeline.Window.ofSpec (Memref.whole main_v48) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x64 : Shape := ⟨2, ![16384, 64]⟩
abbrev S2x524288 : Shape := ⟨2, ![2, 524288]⟩
abbrev S64x64 : Shape := ⟨2, ![64, 64]⟩
abbrev S64 : Shape := ⟨1, ![64]⟩
abbrev S1x524288 : Shape := ⟨2, ![1, 524288]⟩
abbrev S524288 : Shape := ⟨1, ![524288]⟩
abbrev S16384 : Shape := ⟨1, ![16384]⟩
abbrev S540672 : Shape := ⟨1, ![540672]⟩
abbrev S_ : Shape := ⟨0, ![]⟩
abbrev S540672x1 : Shape := ⟨2, ![540672, 1]⟩
abbrev S540672x64 : Shape := ⟨2, ![540672, 64]⟩
abbrev S1x64 : Shape := ⟨2, ![1, 64]⟩
abbrev S64x16384 : Shape := ⟨2, ![64, 16384]⟩
abbrev S16384x16384 : Shape := ⟨2, ![16384, 16384]⟩

abbrev nBuf : Space → Nat
  | .hbm => 69
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S2x524288, .i32⟩
  | .hbm, ⟨2, _⟩ => ⟨S64x64, .f32⟩
  | .hbm, ⟨3, _⟩ => ⟨S64, .f32⟩
  | .hbm, ⟨4, _⟩ => ⟨S1x524288, .i32⟩
  | .hbm, ⟨5, _⟩ => ⟨S524288, .i32⟩
  | .hbm, ⟨6, _⟩ => ⟨S1x524288, .i32⟩
  | .hbm, ⟨7, _⟩ => ⟨S524288, .i32⟩
  | .hbm, ⟨8, _⟩ => ⟨S16384, .i32⟩
  | .hbm, ⟨9, _⟩ => ⟨S540672, .i32⟩
  | .hbm, ⟨10, _⟩ => ⟨S540672, .i32⟩
  | .hbm, ⟨11, _⟩ => ⟨S_, .f32⟩
  | .hbm, ⟨12, _⟩ => ⟨S540672, .f32⟩
  | .hbm, ⟨13, _⟩ => ⟨S_, .f32⟩
  | .hbm, ⟨14, _⟩ => ⟨S16384, .f32⟩
  | .hbm, ⟨15, _⟩ => ⟨S540672x1, .i32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .i1⟩
  | .hbm, ⟨20, _⟩ => ⟨S16384, .f32⟩
  | .hbm, ⟨21, _⟩ => ⟨S_, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S_, .i32⟩
  | .hbm, ⟨26, _⟩ => ⟨S540672, .i32⟩
  | .hbm, ⟨27, _⟩ => ⟨S540672, .i1⟩
  | .hbm, ⟨28, _⟩ => ⟨S_, .i32⟩
  | .hbm, ⟨29, _⟩ => ⟨S540672, .i32⟩
  | .hbm, ⟨30, _⟩ => ⟨S540672, .i32⟩
  | .hbm, ⟨31, _⟩ => ⟨S540672, .i32⟩
  | .hbm, ⟨32, _⟩ => ⟨S540672x1, .i32⟩
  | .hbm, ⟨33, _⟩ => ⟨S540672, .f32⟩
  | .hbm, ⟨34, _⟩ => ⟨S_, .i32⟩
  | .hbm, ⟨35, _⟩ => ⟨S540672, .i32⟩
  | .hbm, ⟨36, _⟩ => ⟨S540672, .i1⟩
  | .hbm, ⟨37, _⟩ => ⟨S_, .i32⟩
  | .hbm, ⟨38, _⟩ => ⟨S540672, .i32⟩
  | .hbm, ⟨39, _⟩ => ⟨S540672, .i32⟩
  | .hbm, ⟨40, _⟩ => ⟨S540672, .i32⟩
  | .hbm, ⟨41, _⟩ => ⟨S540672x1, .i32⟩
  | .hbm, ⟨42, _⟩ => ⟨S540672, .f32⟩
  | .hbm, ⟨43, _⟩ => ⟨S540672, .f32⟩
  | .hbm, ⟨44, _⟩ => ⟨S16384x64, .f32⟩
  | .hbm, ⟨45, _⟩ => ⟨S_, .i32⟩
  | .hbm, ⟨46, _⟩ => ⟨S540672, .i32⟩
  | .hbm, ⟨47, _⟩ => ⟨S540672, .i1⟩
  | .hbm, ⟨48, _⟩ => ⟨S_, .i32⟩
  | .hbm, ⟨49, _⟩ => ⟨S540672, .i32⟩
  | .hbm, ⟨50, _⟩ => ⟨S540672, .i32⟩
  | .hbm, ⟨51, _⟩ => ⟨S540672, .i32⟩
  | .hbm, ⟨52, _⟩ => ⟨S540672x1, .i32⟩
  | .hbm, ⟨53, _⟩ => ⟨S540672x64, .f32⟩
  | .hbm, ⟨54, _⟩ => ⟨S540672x1, .f32⟩
  | .hbm, ⟨55, _⟩ => ⟨S540672x64, .f32⟩
  | .hbm, ⟨56, _⟩ => ⟨S540672x64, .f32⟩
  | .hbm, ⟨57, _⟩ => ⟨S_, .f32⟩
  | .hbm, ⟨58, _⟩ => ⟨S16384x64, .f32⟩
  | .hbm, ⟨59, _⟩ => ⟨S540672x1, .i32⟩
  | .hbm, ⟨60, _⟩ => ⟨S16384x64, .f32⟩
  | .hbm, ⟨61, _⟩ => ⟨S1x64, .f32⟩
  | .hbm, ⟨62, _⟩ => ⟨S16384x64, .f32⟩
  | .hbm, ⟨63, _⟩ => ⟨S16384x64, .f32⟩
  | .hbm, ⟨64, _⟩ => ⟨S_, .f32⟩
  | .hbm, ⟨65, _⟩ => ⟨S16384x64, .f32⟩
  | .hbm, ⟨66, _⟩ => ⟨S16384x64, .f32⟩
  | .hbm, ⟨67, _⟩ => ⟨S64x16384, .f32⟩
  | .hbm, ⟨68, _⟩ => ⟨S16384x16384, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  concatenates_S524288_S16384_S540672_d0 : Shape.Concatenates [S524288, S16384] S540672 0
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x64_0_1 : S540672x1.BroadcastsInDim S540672x64 (![0, 1] : Fin 2 → Fin S540672x64.rank)
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  transposes_S16384x64_S64x16384_1_0 : S16384x64.Transposes [1, 0] S64x16384
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S16384x64_S64x64_S16384x64_1_0_0_1_n_n_wf : DotDims.WF S16384x64 S64x64 S16384x64 [1] [0] [0] [1] [] []
  gather_S16384x64_S540672x1_S540672x64_1_0_n_n_0_1_164_wf : GatherDims.WF S16384x64 S540672x1 S540672x64 [1] [0] [] [0] [] 1 ![1, 64]
  scatter_S16384x64_S540672x1_S540672x64_1_0_0_1_wf : ScatterDims.WF S16384x64 S540672x1 S540672x64 [1] [0] [0] 1
  dot_S16384x64_S64x16384_S16384x16384_1_0_0_1_n_n_wf : DotDims.WF S16384x64 S64x16384 S16384x16384 [1] [0] [0] [1] [] []

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def gather_S16384x64_S540672x1_S540672x64_1_0_n_n_0_1_164 : GatherDims S16384x64 S540672x1 S540672x64 where
  offsetDims := [1]
  collapsedSliceDims := [0]
  operandBatchingDims := []
  startIndicesBatchingDims := []
  startIndexMap := [0]
  indexVectorDim := 1
  sliceSizes := ![1, 64]
  wf := gather_S16384x64_S540672x1_S540672x64_1_0_n_n_0_1_164_wf
def scatter_S16384x64_S540672x1_S540672x64_1_0_0_1 : ScatterDims S16384x64 S540672x1 S540672x64 where
  updateWindowDims := [1]
  insertedWindowDims := [0]
  scatterDimsToOperandDims := [0]
  indexVectorDim := 1
  wf := scatter_S16384x64_S540672x1_S540672x64_1_0_0_1_wf
def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.KFrameBase.lean ====
/- The launch side of `Kernel`'s frame, for any float family `F`.

   The program is a straight line of host operations that ends in the array `h` (`main_v48`, f32[16384, 64] cast
   to bf16), followed by ONE kernel region on an 8 × 8 grid that computes the Gram matrix `h · hᵀ` block by block:
   at grid point (i, j) input window 0 stages rows 2048·i … 2048·i+2047 of `h`, input window 1 stages rows
   2048·j … 2048·j+2047 of THE SAME array `h`, and the body writes the 2048 × 2048 product of the first block with
   the transpose of the second into output window 2, block (i, j) of `main_v49`.

   Both input windows read one array, so neither can hold it at the full share: the array's full share is cut in
   its two halves, window 0 holding the left half and window 1 the right half. Reading needs only a positive share,
   and no window writes `h`; the output array is another buffer and is held whole.

   This module states: the contents of every buffer when the region is entered (`V`: the host operations folded
   over the launch contents), that the host operations run to the region (`hmain`) and write none of the four
   argument arrays (`V_main_arg0` … `V_main_arg3`), the block a window reads at a point (`iblk`), what the body
   leaves in the output buffer as a function of the two input blocks (`gramBlock`), the body's triple
   (`sound_kernel`), the pipeline's proof data (`dats`) and the body obligation at every grid point. -/
import proofs.«104049_j39591008534761_1_alg».proof.Proof.Gen.Kernel.Launch
import proofs.«104049_j39591008534761_1_alg».proof.Proof.Gen.Kernel.Skeleton
import proofs.«104049_j39591008534761_1_alg».proof.Proof.Gen.Kernel.Points
import Idealize.ShloMosaic.Lib.Pipeline.FrameBody
import Idealize.ShloMosaic.Lib.Ring
import Idealize.ShloMosaic.Lib.Tactic

-- membership in a rectangle of 2048 × 2048 coordinates: the structural look recurses once per coordinate
set_option maxRecDepth 16384

noncomputable section

namespace Cert.Kernel.Gram

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations up to the region -/

/-- Core `c`'s buffers when the region is entered: the launch contents after the five stretches of host
    operations, in order. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is the five stretches of host operations and then the region: holding the unscoped buffers at the launch
    contents it reaches the region holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option maxHeartbeats 2000000 in
/-- Every host operation writes a buffer of its own, never `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 2000000 in
/-- Nor `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 2000000 in
/-- Nor `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 2000000 in
/-- Nor `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The block a window reads at a grid point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every point, whether the pipeline fetched it
    there or not (where it did not, the block index has not moved since the last fetch), for any proof data whose
    array is `V`'s and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for input window 1. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output buffer -/

/-- The whole 2048 × 64 input buffer and the whole 2048 × 2048 output buffer, as rectangles. -/
abbrev rIn : Rect S2048x64 := Rect.unit (s := S2048x64) ![0, 0] S2048x64.size inb_S2048x64_S2048x64_0_0
abbrev rOut : Rect S2048x2048 := Rect.unit (s := S2048x2048) ![0, 0] S2048x2048.size inb_S2048x2048_S2048x2048_0_0

/-- The output buffer after the body, from the two input blocks: its one store, of the matrix product of the first
    block with the transpose of the second, covers the buffer. -/
def gramBlock (x0 : Vec F S2048x64 .bf16) (x1 : Vec F S2048x64 .bf16) : Vec F S2048x2048 .f32 :=
  View.canon [⟨rOut, k0_pay1 (View.ld x0 rIn) (View.ld x1 rIn)⟩]

/-- The one store's rectangle is the whole buffer. -/
theorem cover_out (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

/-! ## The body's triple -/

set_option maxHeartbeats 1000000 in
/-- The kernel body on whole staging memrefs, the inputs' at contents `x0`, `x1` and the output's at anything,
    runs to the continuation holding the inputs' as they were and the output's at `gramBlock x0 x1`. -/
theorem sound_kernel (c : Dev nD) (E : Set ℕ) (i : grid0.Coords) (arg0 : Memref sig .tc .vmem S2048x64 .bf16) (harg0 : arg0.IsWhole) (arg1 : Memref sig .tc .vmem S2048x64 .bf16) (harg1 : arg1.IsWhole) (arg2 : Memref sig .tc .vmem S2048x2048 .f32) (harg2 : arg2.IsWhole)
    (x0 : Vec F S2048x64 .bf16) (x1 : Vec F S2048x64 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (gramBlock x0 x1)) -∗ K ⟨⟩))
      ⊢ wp frame (wpE (defs₀ (F := F)) Variants.none c none) E (cc0__matmul_nt_kernel i arg0 harg0 arg1 harg1 arg2 harg2) K := by
  simp only [cc0__matmul_nt_kernel_eq_skeleton]; unfold cc0__matmul_nt_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data of the one pipeline on core `c`: the arrays as the region finds them; after the body at point
    `t` each input buffer at its block and the output buffer at `gramBlock` of the two blocks; the invariant is the
    core's scoped buffers that are no staging buffer, untouched; nothing owed; the input array's full share cut in
    two, the left half to window 0 and the right half to window 1. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => gramBlock (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = gramBlock (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Gram

end
-- ==== Proof.KFrameRun.lean ====
/- The run of `Kernel` and its frame, for any float family `F`.

   The two input windows of the one kernel region read ONE array, `h` = `main_v48`. At the region's entry the core
   holds the buffer behind each distinct array whole at the full share; the pipeline wants every WINDOW's array at
   that window's share. The full share of `h` is the composition of its left and right halves, so the one points-to
   of `h` splits into window 0's (left half) and window 1's (right half), at the same contents; the output array
   `main_v49` is window 2's alone, at the full share (`arrays_of_bufs`).

   With that, the library's launch theorem for a kernel whose input windows share an array gives the run: every
   weakly fair execution of @main terminates, each window's array ends at what the write-backs leave
   (`Dat.arrAt … N`: an input array as the region found it, the output array overwritten block by block), and every
   other unscoped buffer ends as the region found it (`run_main`). The four argument arrays are among the latter and
   no host operation before the region wrote them, so they end as launched: the frame (`frame`). -/
import proofs.«104049_j39591008534761_1_alg».proof.Proof.KFrameBase
import Idealize.ShloMosaic.Lib.Pipeline.Frame

set_option maxRecDepth 16384

noncomputable section

namespace Cert.Kernel.Gram

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares -/

/-- Window 0 holds the left half of `h`'s share, window 1 the right half, and the output window the full share of
    its own array. -/
theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The distinct buffers behind the windows' arrays are `h` and the result. -/
theorem arrRefs_eq : Finset.univ.image (Pipeline.arrRef spec0) = insert main_v48 {main_v49} := by decide

/-- From the buffers behind the arrays, each whole at the full share at the region-entry contents, to the pipeline's
    arrays window by window: `h`'s full share cut in its halves for the two windows that read it. -/
theorem arrays_eq_shares (c : Dev nD) (Fw : (w : Fin cfg0.W) → Buf (Elt F) ((spec0 w).arr.view.loc (c.tc : Thread nD τ))) :
    (dats m 0 c).arrays Fw
      = bigSep Finset.univ fun w => (((c.tc : Thread nD τ).loc (Pipeline.arrRef spec0 w)) ↦{(dats m 0 c).share w} Fw w : sProp 𝕄) := by
  unfold Dat.arrays
  exact bigSep_congr fun w _ => by rw [(arr_whole0 w).set_eq_univ]

theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_eq_shares]
  unfold Pipeline.arrBufs
  rw [arrRefs_eq, bigSep_insert (by decide), bigSep_singleton, bigSep_W0, share0, share1, share2]
  refine (show iprop((((c.tc : Thread nD τ).loc main_v48) ↦{fullShare} V m c main_v48)
      ∗ (((c.tc : Thread nD τ).loc main_v49) ↦{fullShare} V m c main_v49)) ⊢ _ from ?_)
  iintro ⟨Hh, Hout⟩
  ihave Hs := (pointsTo_share (PosShare.mem_left_op_right fullShare)).1 $$ Hh
  icases Hs with ⟨Hl, Hr⟩
  isplitl [Hl]; · iexact Hl
  isplitl [Hr]; · iexact Hr
  iexact Hout

/-! ## The run -/

/-- The region invariant is the core's scoped buffers that are no staging buffer, at every point. -/
theorem Φ_eq (c : Dev nD) (t : Fin (cfg0.N + 1)) :
    (dats m 0 c).Φ t = Pipeline.scopedRest (Ix := Unit) (Name := ℕ) (U := UR sig nD τ) (Lvl := ℕ) (Val := Elt F) spec0 c := rfl

-- the launch theorem's implicit arguments are found by unifying its conclusion with this one, which takes unfolding
-- plain definitions in a metavariable's type
set_option backward.isDefEq.respectTransparency.types false in
set_option maxHeartbeats 4000000 in
/-- From any memory with zero counters every weakly fair execution of @main on the TensorCore terminates; every
    window's array ends at what the write-backs leave of it, and every other unscoped buffer as the region found it. -/
theorem run_main : θ_run defs (onTc (τ := τ) (main (F := F))) ⟨m, fun _ => 0, ρ⟩ (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_of_bufs m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Φ_eq]
      iintro ⟨-, H⟩
      iexact H)
    (hout := fun c => by
      rw [Φ_eq]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- info: 'Cert.Kernel.Gram.run_main' depends on axioms: [propext, Classical.choice, Quot.sound] -/
#guard_msgs in #print axioms run_main

/-! ## The frame -/

/-- The four argument arrays are unscoped buffers that no window stages, so the run leaves them as the region found
    them, and the host operations before the region wrote none of them: they end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel.Gram

end
-- ==== Proof.KiFrameBase.lean ====
/- The launch side of `KernelIdeal`'s frame, for any float family `F`.

   The program is a straight line of host operations that ends in the array `h` (`main_v48`, f32[16384, 64] cast
   to bf16), followed by ONE kernel region on an 8 × 8 grid that computes the Gram matrix `h · hᵀ` block by block:
   at grid point (i, j) input window 0 stages rows 2048·i … 2048·i+2047 of `h`, input window 1 stages rows
   2048·j … 2048·j+2047 of THE SAME array `h`, and the body writes the 2048 × 2048 product of the first block with
   the transpose of the second into output window 2, block (i, j) of `main_v49`.

   Both input windows read one array, so neither can hold it at the full share: the array's full share is cut in
   its two halves, window 0 holding the left half and window 1 the right half. Reading needs only a positive share,
   and no window writes `h`; the output array is another buffer and is held whole.

   This module states: the contents of every buffer when the region is entered (`V`: the host operations folded
   over the launch contents), that the host operations run to the region (`hmain`) and write none of the four
   argument arrays (`V_main_arg0` … `V_main_arg3`), the block a window reads at a point (`iblk`), what the body
   leaves in the output buffer as a function of the two input blocks (`gramBlock`), the body's triple
   (`sound_kernel`), the pipeline's proof data (`dats`) and the body obligation at every grid point. -/
import proofs.«104049_j39591008534761_1_alg».proof.Proof.Gen.KernelIdeal.Launch
import proofs.«104049_j39591008534761_1_alg».proof.Proof.Gen.KernelIdeal.Skeleton
import proofs.«104049_j39591008534761_1_alg».proof.Proof.Gen.KernelIdeal.Points
import Idealize.ShloMosaic.Lib.Pipeline.FrameBody
import Idealize.ShloMosaic.Lib.Ring
import Idealize.ShloMosaic.Lib.Tactic

-- membership in a rectangle of 2048 × 2048 coordinates: the structural look recurses once per coordinate
set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations up to the region -/

/-- Core `c`'s buffers when the region is entered: the launch contents after the five stretches of host
    operations, in order. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is the five stretches of host operations and then the region: holding the unscoped buffers at the launch
    contents it reaches the region holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option maxHeartbeats 2000000 in
/-- Every host operation writes a buffer of its own, never `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 2000000 in
/-- Nor `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 2000000 in
/-- Nor `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxHeartbeats 2000000 in
/-- Nor `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The block a window reads at a grid point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block at every point, whether the pipeline fetched it
    there or not (where it did not, the block index has not moved since the last fetch), for any proof data whose
    array is `V`'s and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for input window 1. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output buffer -/

/-- The whole 2048 × 64 input buffer and the whole 2048 × 2048 output buffer, as rectangles. -/
abbrev rIn : Rect S2048x64 := Rect.unit (s := S2048x64) ![0, 0] S2048x64.size inb_S2048x64_S2048x64_0_0
abbrev rOut : Rect S2048x2048 := Rect.unit (s := S2048x2048) ![0, 0] S2048x2048.size inb_S2048x2048_S2048x2048_0_0

/-- The output buffer after the body, from the two input blocks: its one store, of the matrix product of the first
    block with the transpose of the second, covers the buffer. -/
def gramBlock (x0 : Vec F S2048x64 .bf16) (x1 : Vec F S2048x64 .bf16) : Vec F S2048x2048 .f32 :=
  View.canon [⟨rOut, k0_pay1 (View.ld x0 rIn) (View.ld x1 rIn)⟩]

/-- The one store's rectangle is the whole buffer. -/
theorem cover_out (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

/-! ## The body's triple -/

set_option maxHeartbeats 1000000 in
/-- The kernel body on whole staging memrefs, the inputs' at contents `x0`, `x1` and the output's at anything,
    runs to the continuation holding the inputs' as they were and the output's at `gramBlock x0 x1`. -/
theorem sound_kernel (c : Dev nD) (E : Set ℕ) (i : grid0.Coords) (arg0 : Memref sig .tc .vmem S2048x64 .bf16) (harg0 : arg0.IsWhole) (arg1 : Memref sig .tc .vmem S2048x64 .bf16) (harg1 : arg1.IsWhole) (arg2 : Memref sig .tc .vmem S2048x2048 .f32) (harg2 : arg2.IsWhole)
    (x0 : Vec F S2048x64 .bf16) (x1 : Vec F S2048x64 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (gramBlock x0 x1)) -∗ K ⟨⟩))
      ⊢ wp frame (wpE (defs₀ (F := F)) Variants.none c none) E (cc0__matmul_nt_kernel i arg0 harg0 arg1 harg1 arg2 harg2) K := by
  simp only [cc0__matmul_nt_kernel_eq_skeleton]; unfold cc0__matmul_nt_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data of the one pipeline on core `c`: the arrays as the region finds them; after the body at point
    `t` each input buffer at its block and the output buffer at `gramBlock` of the two blocks; the invariant is the
    core's scoped buffers that are no staging buffer, untouched; nothing owed; the input array's full share cut in
    two, the left half to window 0 and the right half to window 1. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => gramBlock (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = gramBlock (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Gram

end
-- ==== Proof.KiFrameRun.lean ====
/- The run of `KernelIdeal` and its frame, for any float family `F`.

   The two input windows of the one kernel region read ONE array, `h` = `main_v48`. At the region's entry the core
   holds the buffer behind each distinct array whole at the full share; the pipeline wants every WINDOW's array at
   that window's share. The full share of `h` is the composition of its left and right halves, so the one points-to
   of `h` splits into window 0's (left half) and window 1's (right half), at the same contents; the output array
   `main_v49` is window 2's alone, at the full share (`arrays_of_bufs`).

   With that, the library's launch theorem for a kernel whose input windows share an array gives the run: every
   weakly fair execution of @main terminates, each window's array ends at what the write-backs leave
   (`Dat.arrAt … N`: an input array as the region found it, the output array overwritten block by block), and every
   other unscoped buffer ends as the region found it (`run_main`). The four argument arrays are among the latter and
   no host operation before the region wrote them, so they end as launched: the frame (`frame`). -/
import proofs.«104049_j39591008534761_1_alg».proof.Proof.KiFrameBase
import Idealize.ShloMosaic.Lib.Pipeline.Frame

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares -/

/-- Window 0 holds the left half of `h`'s share, window 1 the right half, and the output window the full share of
    its own array. -/
theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The distinct buffers behind the windows' arrays are `h` and the result. -/
theorem arrRefs_eq : Finset.univ.image (Pipeline.arrRef spec0) = insert main_v48 {main_v49} := by decide

/-- From the buffers behind the arrays, each whole at the full share at the region-entry contents, to the pipeline's
    arrays window by window: `h`'s full share cut in its halves for the two windows that read it. -/
theorem arrays_eq_shares (c : Dev nD) (Fw : (w : Fin cfg0.W) → Buf (Elt F) ((spec0 w).arr.view.loc (c.tc : Thread nD τ))) :
    (dats m 0 c).arrays Fw
      = bigSep Finset.univ fun w => (((c.tc : Thread nD τ).loc (Pipeline.arrRef spec0 w)) ↦{(dats m 0 c).share w} Fw w : sProp 𝕄) := by
  unfold Dat.arrays
  exact bigSep_congr fun w _ => by rw [(arr_whole0 w).set_eq_univ]

theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_eq_shares]
  unfold Pipeline.arrBufs
  rw [arrRefs_eq, bigSep_insert (by decide), bigSep_singleton, bigSep_W0, share0, share1, share2]
  refine (show iprop((((c.tc : Thread nD τ).loc main_v48) ↦{fullShare} V m c main_v48)
      ∗ (((c.tc : Thread nD τ).loc main_v49) ↦{fullShare} V m c main_v49)) ⊢ _ from ?_)
  iintro ⟨Hh, Hout⟩
  ihave Hs := (pointsTo_share (PosShare.mem_left_op_right fullShare)).1 $$ Hh
  icases Hs with ⟨Hl, Hr⟩
  isplitl [Hl]; · iexact Hl
  isplitl [Hr]; · iexact Hr
  iexact Hout

/-! ## The run -/

/-- The region invariant is the core's scoped buffers that are no staging buffer, at every point. -/
theorem Φ_eq (c : Dev nD) (t : Fin (cfg0.N + 1)) :
    (dats m 0 c).Φ t = Pipeline.scopedRest (Ix := Unit) (Name := ℕ) (U := UR sig nD τ) (Lvl := ℕ) (Val := Elt F) spec0 c := rfl

-- the launch theorem's implicit arguments are found by unifying its conclusion with this one, which takes unfolding
-- plain definitions in a metavariable's type
set_option backward.isDefEq.respectTransparency.types false in
set_option maxHeartbeats 4000000 in
/-- From any memory with zero counters every weakly fair execution of @main on the TensorCore terminates; every
    window's array ends at what the write-backs leave of it, and every other unscoped buffer as the region found it. -/
theorem run_main : θ_run defs (onTc (τ := τ) (main (F := F))) ⟨m, fun _ => 0, ρ⟩ (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := arrays_of_bufs m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Φ_eq]
      iintro ⟨-, H⟩
      iexact H)
    (hout := fun c => by
      rw [Φ_eq]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-- info: 'Cert.KernelIdeal.Gram.run_main' depends on axioms: [propext, Classical.choice, Quot.sound] -/
#guard_msgs in #print axioms run_main

/-! ## The frame -/

/-- The four argument arrays are unscoped buffers that no window stages, so the run leaves them as the region found
    them, and the host operations before the region wrote none of them: they end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Gram

end
-- ==== Proof.GramSpec.lean ====
/- The Gram matrix of a 16384 × 64 array, and the kernel body's arithmetic read at an index, over the extended reals.

   `gram h` is the 16384 × 16384 array whose entry (a, b) is the sum over the 64 columns k of h[a, k] · h[b, k]: the
   product of `h` with its own transpose.

   The kernel's body multiplies a 2048 × 64 block x0 by the transpose of a 2048 × 64 block x1 into a zero accumulator
   (one `tpu.matmul` contracting axis 1 of both operands; the two shape casts around the loads are of a shape to
   itself). Over the extended reals that product's entry (p, q) is the sum over k of x0[p, k] · x1[q, k]
   (`body_apply`): the zero accumulator adds nothing and the one-axis contraction index is its one coordinate.

   When x0 is rows a·2048 … a·2048+2047 of `h` and x1 is rows b·2048 … b·2048+2047 of THE SAME `h`, entry (p, q) of the
   body's product is entry (a·2048+p, b·2048+q) of `gram h`, term by term in the sum (`block_of_gram`): no law of
   arithmetic is used beyond naming the two row indices, so nothing asks the entries to be finite. -/
import proofs.«104049_j39591008534761_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.GramSpec

open Cert.KernelIdeal Cert.KernelIdeal.Gen
open Idealize.ShloMosaic Idealize.ShloMosaic.ValueIdx

/-- Entry (a, b) of the Gram matrix of `h`: the sum over the columns k of h[a, k] · h[b, k]. -/
def gram (h : S16384x64.Idx → EReal) : S16384x16384.Idx → EReal :=
  fun i => ∑ k : Fin 64, h (ix2 (⟨(i 0).val, (i 0).isLt⟩ : Fin 16384) k) * h (ix2 (⟨(i 1).val, (i 1).isLt⟩ : Fin 16384) k)

/-! ## The body's matrix product at an index -/

/-- The body's dimension numbers: both operands are contracted on their axis 1, and each operand's axis 0 is kept. -/
abbrev bodyDot : DotDims S2048x64 S2048x64 S2048x2048 := dot_S2048x64_S2048x64_S2048x2048_1_1_0_0_n_n

/-- The left operand's row is the output's row, -/
theorem lhs_row (i : S2048x2048.Idx) (q : dot_S2048x64_S2048x64_S2048x2048_1_1_0_0_n_n.contr.Idx) :
    (dot_S2048x64_S2048x64_S2048x2048_1_1_0_0_n_n.lhsIdx i q 0).val = (i 0).val := by
  unfold DotDims.lhsIdx
  rw [dif_neg (show ¬(0 : Fin S2048x64.rank) ∈ dot_S2048x64_S2048x64_S2048x2048_1_1_0_0_n_n.lhsBatch by decide), dif_pos (show (0 : Fin S2048x64.rank) ∈ dot_S2048x64_S2048x64_S2048x2048_1_1_0_0_n_n.lhsNonContracting by decide)]
  rfl
/-- its column the contraction position; -/
theorem lhs_col (i : S2048x2048.Idx) (q : dot_S2048x64_S2048x64_S2048x2048_1_1_0_0_n_n.contr.Idx) :
    (dot_S2048x64_S2048x64_S2048x2048_1_1_0_0_n_n.lhsIdx i q 1).val = (q ⟨0, by decide⟩).val :=
  dot_S2048x64_S2048x64_S2048x2048_1_1_0_0_n_n.lhsIdx_val_of_single rfl i q
/-- the right operand's row is the output's COLUMN (the right operand enters transposed), -/
theorem rhs_row (i : S2048x2048.Idx) (q : dot_S2048x64_S2048x64_S2048x2048_1_1_0_0_n_n.contr.Idx) :
    (dot_S2048x64_S2048x64_S2048x2048_1_1_0_0_n_n.rhsIdx i q 0).val = (i 1).val := by
  unfold DotDims.rhsIdx
  rw [dif_neg (show ¬(0 : Fin S2048x64.rank) ∈ dot_S2048x64_S2048x64_S2048x2048_1_1_0_0_n_n.rhsBatch by decide), dif_pos (show (0 : Fin S2048x64.rank) ∈ dot_S2048x64_S2048x64_S2048x2048_1_1_0_0_n_n.rhsNonContracting by decide)]
  rfl
/-- and its column the contraction position. -/
theorem rhs_col (i : S2048x2048.Idx) (q : dot_S2048x64_S2048x64_S2048x2048_1_1_0_0_n_n.contr.Idx) :
    (dot_S2048x64_S2048x64_S2048x2048_1_1_0_0_n_n.rhsIdx i q 1).val = (q ⟨0, by decide⟩).val :=
  dot_S2048x64_S2048x64_S2048x2048_1_1_0_0_n_n.rhsIdx_val_of_single rfl i q

/-- The body's stored value at (p, q): the sum over the 64 columns k of x0[p, k] · x1[q, k]. -/
theorem body_apply (x0 x1 : Vec Ideal S2048x64 .bf16) (p q : Fin 2048) :
    k0_pay1 (F := Ideal) x0 x1 (ix2 p q) = ∑ k : Fin 64, x0 (ix2 p k) * x1 (ix2 q k) := by
  unfold k0_pay1
  rw [shapeCast_self, shapeCast_self]
  simp only [matmul]
  rw [Ideal.matmul_constant_zero_apply, ← Equiv.sum_comp (contrEquiv1 dot_S2048x64_S2048x64_S2048x2048_1_1_0_0_n_n 64 rfl rfl).symm]
  refine Finset.sum_congr rfl fun k _ => ?_
  have hk := contrEquiv1_symm_val dot_S2048x64_S2048x64_S2048x2048_1_1_0_0_n_n 64 rfl rfl k
  have el : dot_S2048x64_S2048x64_S2048x2048_1_1_0_0_n_n.lhsIdx (ix2 p q) ((contrEquiv1 dot_S2048x64_S2048x64_S2048x2048_1_1_0_0_n_n 64 rfl rfl).symm k) = ix2 p k := funext fun a => Fin.ext (by
    match a with
    | ⟨0, _⟩ => exact lhs_row _ _
    | ⟨1, _⟩ => exact (lhs_col _ _).trans hk)
  have er : dot_S2048x64_S2048x64_S2048x2048_1_1_0_0_n_n.rhsIdx (ix2 p q) ((contrEquiv1 dot_S2048x64_S2048x64_S2048x2048_1_1_0_0_n_n 64 rfl rfl).symm k) = ix2 q k := funext fun a => Fin.ext (by
    match a with
    | ⟨0, _⟩ => exact rhs_row _ _
    | ⟨1, _⟩ => exact (rhs_col _ _).trans hk)
  rw [el, er]

/-! ## A block of the Gram matrix -/

/-- If x0 is the a-th block of 2048 rows of `h` and x1 its b-th block of 2048 rows, the body's product at (p, q) is the
    Gram matrix of `h` at the index `i` whose coordinates are (a·2048 + p, b·2048 + q). -/
theorem block_of_gram (h : S16384x64.Idx → EReal) (x0 x1 : Vec Ideal S2048x64 .bf16) (a b : Nat) (ha : a ≤ 7) (hb : b ≤ 7)
    (h0 : ∀ (p : Fin 2048) (k : Fin 64), x0 (ix2 p k) = h (ix2 (⟨a * 2048 + p.val, by have := p.isLt; omega⟩ : Fin 16384) k))
    (h1 : ∀ (q : Fin 2048) (k : Fin 64), x1 (ix2 q k) = h (ix2 (⟨b * 2048 + q.val, by have := q.isLt; omega⟩ : Fin 16384) k))
    (p q : Fin 2048) (i : S16384x16384.Idx) (hi0 : (i 0).val = a * 2048 + p.val) (hi1 : (i 1).val = b * 2048 + q.val) :
    k0_pay1 (F := Ideal) x0 x1 (ix2 p q) = gram h i := by
  rw [body_apply]
  unfold gram
  refine Finset.sum_congr rfl fun k _ => ?_
  rw [h0, h1]
  have e0 : (⟨a * 2048 + p.val, by have := p.isLt; omega⟩ : Fin 16384) = ⟨(i 0).val, (i 0).isLt⟩ := Fin.ext hi0.symm
  have e1 : (⟨b * 2048 + q.val, by have := q.isLt; omega⟩ : Fin 16384) = ⟨(i 1).val, (i 1).isLt⟩ := Fin.ext hi1.symm
  rw [e0, e1]

end Cert.KernelIdeal.GramSpec

end
-- ==== Proof.GramValue.lean ====
/- The value of the idealized kernel's result array: the Gram matrix of the array the region reads.

   Over the extended reals, with `h` the contents of `main_v48` when the region is entered:

   * at grid point t = (i, j) input window 0 stages rows 2048·i … of `h` and input window 1 rows 2048·j … of the same
     `h` (the windows' index maps, decided once over the 64 points: window 0's row block is the output's row block,
     window 1's row block is the output's COLUMN block, both have column block 0);
   * so what point t writes back is block (i, j) of `gram h` (`flushed_eq`, by `block_of_gram`);
   * every index (a, b) of the 16384 × 16384 result lies in the block of the point (a / 2048, b / 2048), and every
     point writes its block back (`cover`);
   * hence the result array ends at `gram h` (`final`), and the run's post can be read with the result named
     (`run`). -/
import proofs.«104049_j39591008534761_1_alg».proof.Proof.KiFrameRun
import proofs.«104049_j39591008534761_1_alg».proof.Proof.GramSpec

set_option maxRecDepth 16384

noncomputable section

open scoped BigOperators

namespace Cert.KernelIdeal.GramValue

open Cert.KernelIdeal Cert.KernelIdeal.Gen Cert.KernelIdeal.Gram Cert.KernelIdeal.GramSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The array the region's two input windows read, as the region finds it. -/
abbrev harr (c : Dev nD) : S16384x64.Idx → EReal := V m c main_v48

theorem hz : (![0, 0] : Fin 2 → Nat) = fun _ => 0 := funext fun a => by fin_cases a <;> rfl

/-- The windows' block indices over the 8 × 8 grid: window 0 follows the output's row block, window 1 the output's
    column block, and the output's block indices stay below 8. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every one of the 8 × 8 output blocks is some point's. -/
theorem idx_onto : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-- Input window 0's block at point t is rows (row block)·2048 … of `h`. -/
theorem iblk0_apply (c : Dev nD) (t : Fin cfg0.N) (p : Fin 2048) (k : Fin 64) :
    iblk m c 0 t (ix2 p k) = harr m c (ix2 (⟨win0_2.index t (0 : Fin 2) * 2048 + p.val, by have := (idx_facts t).2.2.2.2.1; have := p.isLt; omega⟩ : Fin 16384) k) := by
  obtain ⟨e0, e1, e2, e3, e4, e5⟩ := idx_facts t
  show V m c main_v48 (((cfg0.win 0).blk t).view.emb (ix2 p k)) = V m c main_v48 _
  refine congrArg (V m c main_v48) (funext fun a => Fin.ext ?_)
  match a with
  | ⟨0, _⟩ => show win0_0.index t (0 : Fin 2) * 2048 + 1 * p.val = win0_2.index t (0 : Fin 2) * 2048 + p.val; omega
  | ⟨1, _⟩ => show win0_0.index t (1 : Fin 2) * 64 + 1 * k.val = k.val; omega

/-- Input window 1's block at point t is rows (COLUMN block)·2048 … of the same `h`. -/
theorem iblk1_apply (c : Dev nD) (t : Fin cfg0.N) (q : Fin 2048) (k : Fin 64) :
    iblk m c 1 t (ix2 q k) = harr m c (ix2 (⟨win0_2.index t (1 : Fin 2) * 2048 + q.val, by have := (idx_facts t).2.2.2.2.2; have := q.isLt; omega⟩ : Fin 16384) k) := by
  obtain ⟨e0, e1, e2, e3, e4, e5⟩ := idx_facts t
  show V m c main_v48 (((cfg0.win 1).blk t).view.emb (ix2 q k)) = V m c main_v48 _
  refine congrArg (V m c main_v48) (funext fun a => Fin.ext ?_)
  match a with
  | ⟨0, _⟩ => show win0_1.index t (0 : Fin 2) * 2048 + 1 * q.val = win0_2.index t (1 : Fin 2) * 2048 + q.val; omega
  | ⟨1, _⟩ => show win0_1.index t (1 : Fin 2) * 64 + 1 * k.val = k.val; omega

/-- What point t writes back is block t of the Gram matrix of `h`. -/
theorem flushed_eq (c : Dev nD) (t : Fin cfg0.N) :
    (dats m 0 c).flushed 2 t = ((cfg0.win 2).blk t).view.read (Elt Ideal) (gram (harr m c)) := by
  show (cfg0.win 2).cut (grid0.coords t) ((dats m 0 c).after 2 t) = _
  rw [after2]
  unfold gramBlock
  rw [View.canon_unit_zero hz]
  simp only [View.ld_unit_zero (S := S2048x64) hz]
  obtain ⟨e0, e1, e2, e3, e4, e5⟩ := idx_facts t
  funext j
  obtain ⟨p, q, rfl⟩ : ∃ (p : Fin 2048) (q : Fin 2048), j = ix2 p q := ⟨j 0, j 1, eq_ix2 j⟩
  refine block_of_gram (harr m c) (iblk m c 0 t) (iblk m c 1 t) (win0_2.index t (0 : Fin 2)) (win0_2.index t (1 : Fin 2)) e4 e5
    (fun p k => iblk0_apply m c t p k) (fun q k => iblk1_apply m c t q k) p q (((cfg0.win 2).blk t).view.emb (ix2 p q)) ?_ ?_
  · show win0_2.index t (0 : Fin 2) * 2048 + 1 * p.val = win0_2.index t (0 : Fin 2) * 2048 + p.val; omega
  · show win0_2.index t (1 : Fin 2) * 2048 + 1 * q.val = win0_2.index t (1 : Fin 2) * 2048 + q.val; omega

/-- An index of the result is in point t's block iff each coordinate is in the block's range on its axis. -/
theorem mem_blk (t : Fin cfg0.N) (i : S16384x16384.Idx) :
    i ∈ ((cfg0.win 2).blk t).view.set ↔ ∀ a : Fin 2, win0_2.index t a * S2048x2048.size a ≤ (i a).val ∧ (i a).val < win0_2.index t a * S2048x2048.size a + S2048x2048.size a := by
  show i ∈ ((View.whole main_v49).slice (win0_2.rect t)).set ↔ _
  rw [View.set_slice_whole, Rect.mem_set_unit]
  exact Iff.rfl

/-- Every index (a, b) of the result is in the block of the point whose output block is (a / 2048, b / 2048), and that
    point writes its block back. -/
theorem cover (i : S16384x16384.Idx) : ∃ t : Fin cfg0.N, (cfg0.win 2).flush t = true ∧ i ∈ ((cfg0.win 2).blk t).view.set := by
  have hi0 : (i 0).val < 16384 := (i 0).isLt
  have hi1 : (i 1).val < 16384 := (i 1).isLt
  obtain ⟨t, ht⟩ := idx_onto ⟨(i 0).val / 2048, by omega⟩ ⟨(i 1).val / 2048, by omega⟩
  have q0 : win0_2.index t (0 : Fin 2) = (i 0).val / 2048 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 2048 ≤ (i 1).val ∧ (i 1).val < win0_2.index t (1 : Fin 2) * 2048 + 2048; omega

/-- The result array after the run is the Gram matrix of `h`. -/
theorem final (c : Dev nD) : (dats m 0 c).arrAt 2 cfg0.N = gram (harr m c) :=
  (dats m 0 c).arrAt_eq_of_cover 2 (gram (harr m c)) (fun t _ => flushed_eq m c t) cover

/-- The run, read: the result array at the Gram matrix of the array the region read, the arguments as launched. -/
theorem run : θ_run defs (onTc (τ := τ) (main (F := Ideal))) ⟨m, fun _ => 0, ρ⟩ fun r => ∀ c : Dev nD,
      r.2.mem ((c.tc : Thread nD τ).loc main_v49) = gram (harr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.GramValue

end
-- ==== Proof.GramHost.lean ====
/- The array the kernel region reads, as a function of the program's arguments, for any float family `F`.

   The kernel program's host operations before the region and the reference's host operations before its last two are
   the same operations in the same order: the edge list with self-loops appended, the degrees by a scatter-add of
   ones, their inverse square roots where positive, the normalisation gathered per edge, the linear map z · W, the
   scaled messages scatter-added per target node, the bias, and the rectifier. So the array `main_v47` both programs
   reach is ONE function of the four arguments; the reference's read module names it `val_main_v47`. The kernel
   program then changes the float format to bf16 (`main_v48`), which is what the region's two input windows stage.

   The equation is between two terms built from the same operations applied to the same arguments; it holds by
   unfolding the names on both sides, and is stated at an abstract float family so that nothing is evaluated. -/
import proofs.«104049_j39591008534761_1_alg».proof.Proof.KiFrameBase
import proofs.«104049_j39591008534761_1_alg».proof.Proof.RefRead
import Idealize.ShloMosaic.Lib.StableHlo.Run

set_option maxRecDepth 16384

noncomputable section

namespace Cert.KernelIdeal.GramHost

open Cert.KernelIdeal Cert.KernelIdeal.Gen Cert.KernelIdeal.Gram
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 4000000 in
/-- When the region is entered, `main_v48` holds the shared activations of the four arguments, in bf16. -/
theorem h_eq (c : Dev nD) :
    V m c main_v48 = (truncf .bf16 (Cert.ReferenceIdeal.ReadP.val_main_v47 (F := F) (m ((c : Thread nD τ).loc main_arg0)) (m ((c : Thread nD τ).loc main_arg1)) (m ((c : Thread nD τ).loc main_arg2)) (m ((c : Thread nD τ).loc main_arg3))) bitsLt_bf16_f32 : (⟨S16384x64, .bf16⟩ : BufTy).Contents (Elt F)) := by
  dsimp only [V]
  simp only [hostOps0, hostOps0_1, hostOps0_2, hostOps0_3, hostOps0_4, List.flatten_cons, List.flatten_nil, List.append_nil, List.cons_append, List.nil_append]
  after_results_simp
  rfl

end Cert.KernelIdeal.GramHost

end
-- ==== Proof.RefGram.lean ====
/- The reference's result is the Gram matrix of its activations, over the extended reals.

   The reference ends with `h @ h.T`: a transpose of the activations `h` (`main_v47`, 16384 × 64) and a host
   `dot_general` contracting axis 1 of `h` with axis 0 of the transpose. Read at an index (a, b) that is the sum over
   the 64 values k of h[a, k] · hᵀ[k, b], and hᵀ[k, b] is h[b, k]: entry (a, b) of `gram h`, term by term. -/
import proofs.«104049_j39591008534761_1_alg».proof.Proof.RefRead
import proofs.«104049_j39591008534761_1_alg».proof.Proof.GramSpec

noncomputable section

open scoped BigOperators

namespace Cert.ReferenceIdeal.GramRef

open Cert.ReferenceIdeal Cert.ReferenceIdeal.Gen Cert.ReferenceIdeal.ReadP Cert.KernelIdeal.GramSpec
open Idealize.ShloMosaic Idealize.ShloMosaic.ValueIdx

/-- The reference's last stage is the Gram matrix of the stage before its transpose. -/
theorem ref_is_gram (x0 : (⟨S16384x64, .f32⟩ : BufTy).Contents (Elt Ideal)) (x1 : (⟨S2x524288, .i32⟩ : BufTy).Contents (Elt Ideal)) (x2 : (⟨S64x64, .f32⟩ : BufTy).Contents (Elt Ideal)) (x3 : (⟨S64, .f32⟩ : BufTy).Contents (Elt Ideal)) :
    val_main_v49 (F := Ideal) x0 x1 x2 x3 = gram (val_main_v47 (F := Ideal) x0 x1 x2 x3) := by
  funext i
  rw [val_main_v49_apply]
  unfold gram
  refine Finset.sum_congr rfl fun k _ => ?_
  rw [val_main_v48_apply]
  have el : lidx_main_v49 i k = ix2 (⟨(i 0).val, (i 0).isLt⟩ : Fin 16384) k := funext fun a => by
    match a with
    | ⟨0, _⟩ => rfl
    | ⟨1, _⟩ => rfl
  have er : idx_main_v48 (ridx_main_v49 i k) = ix2 (⟨(i 1).val, (i 1).isLt⟩ : Fin 16384) k := funext fun a => by
    match a with
    | ⟨0, _⟩ => rfl
    | ⟨1, _⟩ => rfl
  rw [el, er]

end Cert.ReferenceIdeal.GramRef

end
-- ==== Proof.lean ====
/- The proof of `Cert.Claim`: the kernel computes `relu(GCN(z, edges, W, b))` on the host and its Gram matrix
   `h · hᵀ` in one kernel region; the reference computes the same activations and `h @ h.T` on the host.

   * The three frames. Each program terminates on every weakly fair execution, faults nowhere and leaves its four
     argument arrays as launched: for the two kernel programs by the run of the region whose two input windows share
     the array `h` (Proof/KFrameRun.lean at the word level, Proof/KiFrameRun.lean over the extended reals: the array's
     share is cut in two halves, one per window); for the reference by its run, the result dropped.
   * `preserves`: the idealization rewrote no operation, so there is nothing to state.
   * `algebraic`: over the extended reals the kernel's result array is the Gram matrix of the array the region reads
     (Proof/GramValue.lean), that array is the shared activations of the arguments in bf16, a change of format that is
     the identity there (Proof/GramHost.lean), and the reference's result is the Gram matrix of the same activations
     (Proof/RefGram.lean: the transpose read at an index turns `Σₖ h[a,k]·hᵀ[k,b]` into `Σₖ h[a,k]·h[b,k]`). The two
     sums agree term by term, so no entry is asked to be finite and the precondition is not used. -/
import proofs.«104049_j39591008534761_1_alg».proof.Defs
import proofs.«104049_j39591008534761_1_alg».proof.Proof.Gen.Kernel
import proofs.«104049_j39591008534761_1_alg».proof.Proof.Gen.KernelIdeal
import proofs.«104049_j39591008534761_1_alg».proof.Proof.Gen.ReferenceIdeal
import proofs.«104049_j39591008534761_1_alg».proof.Proof.Gen.Pre_finite_inputs
import proofs.«104049_j39591008534761_1_alg».proof.Proof.KFrameRun
import proofs.«104049_j39591008534761_1_alg».proof.Proof.KiFrameRun
import proofs.«104049_j39591008534761_1_alg».proof.Proof.GramValue
import proofs.«104049_j39591008534761_1_alg».proof.Proof.GramHost
import proofs.«104049_j39591008534761_1_alg».proof.Proof.RefGram
import Idealize.ShloMosaic.Adequacy
import Idealize.ShloMosaic.Init

noncomputable section

namespace Cert.Proof

open Idealize.ShloMosaic Idealize.SL.Sem
open Cert.KernelIdeal.GramSpec (gram)

theorem frame_k : Cert.frame_Kernel := fun m ρ _ => Cert.Kernel.Gram.frame m ρ
theorem frame_ki : Cert.frame_KernelIdeal := fun m ρ _ => Cert.KernelIdeal.Gram.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Over the extended reals the array the region reads is the shared activations themselves: the change of format to
    bf16 is the identity there. -/
theorem harr_eq (m : (ℓ : Loc Cert.KernelIdeal.nD Cert.KernelIdeal.τ Cert.KernelIdeal.sig) → Buf (Elt Ideal) ℓ) (c : Dev Cert.KernelIdeal.nD) :
    Cert.KernelIdeal.GramValue.harr m c
      = Cert.ReferenceIdeal.ReadP.val_main_v47 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) :=
  (Cert.KernelIdeal.GramHost.h_eq (F := Ideal) m c).trans rfl

/-- Both programs, run from memories that agree on the arguments, end with the Gram matrix of the shared activations. -/
theorem algebraic : Cert.algebraic_KernelIdeal_ReferenceIdeal := by
  intro m ρ m' ρ' _ hagree
  refine ⟨fun c => gram (Cert.KernelIdeal.GramValue.harr m c), Cert.KernelIdeal.GramValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v49_eq, Cert.ReferenceIdeal.GramRef.ref_is_gram,
    (hagree c).1, (hagree c).2.1, (hagree c).2.2.1, (hagree c).2.2.2]
  exact congrArg gram (harr_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
